-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_arg5 : FVec F S40 .f32) (main_arg6 : FVec F S100000x64 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S100000x64 .f32 := Host.absf main_arg6
  let main_cst_8 : FVec F S_ .f32 := constant S_ .f32 0x7F800000#32
  let main_v25 : FVec F S100000x64 .f32 := broadcastInDim S100000x64 ![] bcast_S_S100000x64 main_cst_8
  let main_v26 : IVec S100000x64 1 := cmpf .olt main_v24 main_v25
  let main_c_9 : IVec S_ 1 := constantI S_ 1 1#1
  let main_v27 : IVec S_ 1 := (fun x v => Host.reduce IntOp.andi x v reducesTo_S100000x64_S_d0_1 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) (main_arg6 : FVec F S100000x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S2000x128 : Shape := ⟨2, ![2000, 128]⟩
abbrev S2000x64 : Shape := ⟨2, ![2000, 64]⟩
abbrev S1600000x64 : Shape := ⟨2, ![1600000, 64]⟩
abbrev S1x64 : Shape := ⟨2, ![1, 64]⟩
abbrev S100000x1 : Shape := ⟨2, ![100000, 1]⟩
abbrev S2000x1 : Shape := ⟨2, ![2000, 1]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 81
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000x64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x1, .f32⟩
  | .hbm, ⟨60, _⟩ => ⟨S100000x64, .f32⟩
  | .hbm, ⟨61, _⟩ => ⟨S100000x40, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x40, .f32⟩
  | .hbm, ⟨71, _⟩ => ⟨S1600000x1, .f32⟩
  | .hbm, ⟨72, _⟩ => ⟨S1600000x40, .f32⟩
  | .hbm, ⟨73, _⟩ => ⟨S1600000x40, .f32⟩
  | .hbm, ⟨74, _⟩ => ⟨S_, .f32⟩
  | .hbm, ⟨75, _⟩ => ⟨S100000x40, .f32⟩
  | .hbm, ⟨76, _⟩ => ⟨S1600000x1, .i32⟩
  | .hbm, ⟨77, _⟩ => ⟨S100000x40, .f32⟩
  | .hbm, ⟨78, _⟩ => ⟨S1x40, .f32⟩
  | .hbm, ⟨79, _⟩ => ⟨S100000x1, .f32⟩
  | .hbm, ⟨80, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S2000x40, .f32⟩
  | .local _ .vmem, ⟨24, _⟩ => ⟨S2000x40, .f32⟩
  | .local _ .vmem, ⟨25, _⟩ => ⟨S2000x1, .f32⟩
  | .local _ .vmem, ⟨26, _⟩ => ⟨S2000x1, .f32⟩
  | .local _ .vmem, ⟨27, _⟩ => ⟨S1x40, .f32⟩
  | .local _ .vmem, ⟨28, _⟩ => ⟨S2000x40, .f32⟩
  | .local _ .vmem, ⟨29, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x40_S2000x40_1_0_0_1_n_n_wf : DotDims.WF S2000x64 S64x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x40.size a ≤ S100000x40.size a
  hwx3_1 : ∀ i : grid3.Coords, EltTy.bits .f32 = 32 ∨ (Rect.block (s := S100000x40) S2000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x40.size a ≤ S100000x40.size a
  hwx3_4 : ∀ i : grid3.Coords, EltTy.bits .f32 = 32 ∨ (Rect.block (s := S100000x40) S2000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000x64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .f32⟩
  | .hbm, ⟨71, _⟩ => ⟨S1600000, .f32⟩
  | .hbm, ⟨72, _⟩ => ⟨S_, .f32⟩
  | .hbm, ⟨73, _⟩ => ⟨S100000, .f32⟩
  | .hbm, ⟨74, _⟩ => ⟨S1600000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000, .f32⟩
  | .hbm, ⟨98, _⟩ => ⟨S1600000, .f32⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x40, .f32⟩
  | .hbm, ⟨108, _⟩ => ⟨S1600000x1, .f32⟩
  | .hbm, ⟨109, _⟩ => ⟨S1600000x40, .f32⟩
  | .hbm, ⟨110, _⟩ => ⟨S1600000x40, .f32⟩
  | .hbm, ⟨111, _⟩ => ⟨S_, .f32⟩
  | .hbm, ⟨112, _⟩ => ⟨S100000x40, .f32⟩
  | .hbm, ⟨113, _⟩ => ⟨S1600000x1, .i32⟩
  | .hbm, ⟨114, _⟩ => ⟨S100000x40, .f32⟩
  | .hbm, ⟨115, _⟩ => ⟨S100000, .f32⟩
  | .hbm, ⟨116, _⟩ => ⟨S100000x1, .f32⟩
  | .hbm, ⟨117, _⟩ => ⟨S100000x40, .f32⟩
  | .hbm, ⟨118, _⟩ => ⟨S100000x40, .f32⟩
  | .hbm, ⟨119, _⟩ => ⟨S100000x40, .f32⟩
  | .hbm, ⟨120, _⟩ => ⟨S1x40, .f32⟩
  | .hbm, ⟨121, _⟩ => ⟨S100000x40, .f32⟩
  | .hbm, ⟨122, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_15 : Ref sig .tc := ⟨.hbm, 99, rfl⟩
abbrev main_v73 : Ref sig .tc := ⟨.hbm, 100, rfl⟩
abbrev main_v74 : Ref sig .tc := ⟨.hbm, 101, rfl⟩
abbrev main_c_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Dense.lean ====
import proofs.«103116_j7000796692945_1_alg».proof.Proof.Gen.KernelIdeal.Frame
import proofs.«103116_j7000796692945_1_alg».proof.Proof.Gen.ReferenceIdeal
import proofs.«103116_j7000796692945_1_alg».proof.Proof.Gen.ReferenceIdeal.Read
import Idealize.ShloMosaic.Lib.Pipeline.Value
import Idealize.ShloMosaic.Lib.ValueIdx
import Idealize.ShloMosaic.PureOps.Ideal.Laws
set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx

/-! # The two dense layers, each as one whole-array product

Each dense layer multiplies a [100000, K] matrix by a small [K, M] matrix, 2000 rows at a time: grid point `t` of 50
takes rows 2000 t … 2000 t + 1999 of the left matrix and the whole right matrix, and writes the same rows of the
output. At the ideal values the casts to bf16 are the identity and the accumulator starts at zero, so entry (p, q) of a
block is the sum over k of left (p, k) · right (k, q), which is entry (2000 t + p, q) of the product of the whole
arrays; the 50 row blocks tile the 100000 rows, so the output array as a whole is that product. -/

/-- Every block sits at offset zero of its own staging buffer. -/
theorem origin : (![0, 0] : Fin 2 → Nat) = fun _ => 0 := funext fun a => by fin_cases a <;> rfl

/-! ## The first dense layer: rows of the [100000,128] matrix against the whole [128,64] matrix -/

/-- The whole-array product: entry (r, q) is the sum over k of left (r, k) times right (k, q). -/
theorem product1_apply (A : S100000x128.Idx → Elt Ideal .f32) (B : S128x64.Idx → Elt Ideal .f32) (i : S100000x64.Idx) :
    Host.dotGeneral (F := Ideal) (φ₁ := .f32) (φ₂ := .f32) Cert.ReferenceIdeal.dot_S100000x128_S128x64_S100000x64_1_0_0_1_n_n none A B i
      = ∑ k : Fin 128, A (Cert.ReferenceIdeal.Read.lidx_main_v4 i k) * B (Cert.ReferenceIdeal.Read.ridx_main_v4 i k) :=
  Cert.ReferenceIdeal.Read.val_main_v4_apply A B i

/-- A block's product reads the left block along its own row: axis 0 is the output's row. -/
theorem lhs_rows1_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and axis 1 is the summation index. -/
theorem lhs_rows1_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right matrix is read at the summation index on axis 0 … -/
theorem rhs_rows1_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and at the output's column on axis 1. -/
theorem rhs_rows1_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- What one grid point computes: entry (p, q) of its 2000-row block is the sum over k of the left block's
    (p, k) times the right matrix's (k, q); the casts to bf16 change nothing at the ideal values and the
    accumulator starts at zero. -/
theorem rows1_apply (x0 : Vec Ideal S2000x128 .f32) (x1 : Vec Ideal S128x64 .f32) (p : Fin 2000) (q : Fin 64) :
    k0_pay1 (F := Ideal) x0 x1 (ix2 p q) = ∑ k : Fin 128, x0 (ix2 p k) * x1 (ix2 k q) := by
  unfold k0_pay1
  show FloatOps.matmul dot_S2000x128_S128x64_S2000x64_1_0_0_1_n_n none (x0 : FVec Ideal S2000x128 .bf16) (x1 : FVec Ideal S128x64 .bf16) (constant (F := Ideal) S2000x64 .f32 0x00000000#32) (ix2 p q) = _
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_rows1_0 _ _
    | ⟨1, _⟩ => exact (lhs_rows1_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_rows1_0 _ _).trans hk
    | ⟨1, _⟩ => exact rhs_rows1_1 _ _)
  rw [el, er]

/-! ## The second dense layer: rows of the [100000,64] matrix against the whole [64,40] matrix -/

/-- The whole-array product, for any left matrix: entry (r, q) is the sum over k of left (r, k) times right (k, q). -/
theorem product2_apply (A : S100000x64.Idx → Elt Ideal .f32) (B : S64x40.Idx → Elt Ideal .f32) (i : S100000x40.Idx) :
    Host.dotGeneral (F := Ideal) (φ₁ := .f32) (φ₂ := .f32) Cert.ReferenceIdeal.dot_S100000x64_S64x40_S100000x40_1_0_0_1_n_n none A B i
      = ∑ k : Fin 64, A (Cert.ReferenceIdeal.Read.lidx_main_v50 i k) * B (Cert.ReferenceIdeal.Read.ridx_main_v50 i k) := by
  simp only [Host.dotGeneral]
  rw [Ideal.dotGeneral_apply, ← Equiv.sum_comp (ValueIdx.contrEquiv1 Cert.ReferenceIdeal.dot_S100000x64_S64x40_S100000x40_1_0_0_1_n_n 64 rfl rfl).symm]
  refine Finset.sum_congr rfl fun k _ => ?_
  have hk := ValueIdx.contrEquiv1_symm_val Cert.ReferenceIdeal.dot_S100000x64_S64x40_S100000x40_1_0_0_1_n_n 64 rfl rfl k
  have el : Cert.ReferenceIdeal.dot_S100000x64_S64x40_S100000x40_1_0_0_1_n_n.lhsIdx i ((ValueIdx.contrEquiv1 Cert.ReferenceIdeal.dot_S100000x64_S64x40_S100000x40_1_0_0_1_n_n 64 rfl rfl).symm k) = Cert.ReferenceIdeal.Read.lidx_main_v50 i k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : Cert.ReferenceIdeal.dot_S100000x64_S64x40_S100000x40_1_0_0_1_n_n.rhsIdx i ((ValueIdx.contrEquiv1 Cert.ReferenceIdeal.dot_S100000x64_S64x40_S100000x40_1_0_0_1_n_n 64 rfl rfl).symm k) = Cert.ReferenceIdeal.Read.ridx_main_v50 i k := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]

/-- A block's product reads the left block along its own row: axis 0 is the output's row. -/
theorem lhs_rows2_0 (i : S2000x40.Idx) (q : dot_S2000x64_S64x40_S2000x40_1_0_0_1_n_n.contr.Idx) :
    (dot_S2000x64_S64x40_S2000x40_1_0_0_1_n_n.lhsIdx i q 0).val = (i 0).val := by
  unfold DotDims.lhsIdx
  rw [dif_neg (show ¬(0 : Fin S2000x64.rank) ∈ dot_S2000x64_S64x40_S2000x40_1_0_0_1_n_n.lhsBatch by decide), dif_pos (show (0 : Fin S2000x64.rank) ∈ dot_S2000x64_S64x40_S2000x40_1_0_0_1_n_n.lhsNonContracting by decide)]
  rfl
/-- … and axis 1 is the summation index. -/
theorem lhs_rows2_1 (i : S2000x40.Idx) (q : dot_S2000x64_S64x40_S2000x40_1_0_0_1_n_n.contr.Idx) :
    (dot_S2000x64_S64x40_S2000x40_1_0_0_1_n_n.lhsIdx i q 1).val = (q ⟨0, by decide⟩).val :=
  dot_S2000x64_S64x40_S2000x40_1_0_0_1_n_n.lhsIdx_val_of_single rfl i q
/-- The right matrix is read at the summation index on axis 0 … -/
theorem rhs_rows2_0 (i : S2000x40.Idx) (q : dot_S2000x64_S64x40_S2000x40_1_0_0_1_n_n.contr.Idx) :
    (dot_S2000x64_S64x40_S2000x40_1_0_0_1_n_n.rhsIdx i q 0).val = (q ⟨0, by decide⟩).val :=
  dot_S2000x64_S64x40_S2000x40_1_0_0_1_n_n.rhsIdx_val_of_single rfl i q
/-- … and at the output's column on axis 1. -/
theorem rhs_rows2_1 (i : S2000x40.Idx) (q : dot_S2000x64_S64x40_S2000x40_1_0_0_1_n_n.contr.Idx) :
    (dot_S2000x64_S64x40_S2000x40_1_0_0_1_n_n.rhsIdx i q 1).val = (i 1).val := by
  unfold DotDims.rhsIdx
  rw [dif_neg (show ¬(1 : Fin S64x40.rank) ∈ dot_S2000x64_S64x40_S2000x40_1_0_0_1_n_n.rhsBatch by decide), dif_pos (show (1 : Fin S64x40.rank) ∈ dot_S2000x64_S64x40_S2000x40_1_0_0_1_n_n.rhsNonContracting by decide)]
  rfl

/-- What one grid point computes: entry (p, q) of its 2000-row block is the sum over k of the left block's
    (p, k) times the right matrix's (k, q); the reshape of the left block to its own shape and the casts to bf16
    change nothing at the ideal values, and the accumulator starts at zero. -/
theorem rows2_apply (x0 : Vec Ideal S2000x64 .f32) (x1 : Vec Ideal S64x40 .f32) (p : Fin 2000) (q : Fin 40) :
    k2_pay1 (F := Ideal) x0 x1 (ix2 p q) = ∑ k : Fin 64, x0 (ix2 p k) * x1 (ix2 k q) := by
  unfold k2_pay1
  rw [shapeCast_self]
  show FloatOps.matmul dot_S2000x64_S64x40_S2000x40_1_0_0_1_n_n none (x0 : FVec Ideal S2000x64 .bf16) (x1 : FVec Ideal S64x40 .bf16) (constant (F := Ideal) S2000x40 .f32 0x00000000#32) (ix2 p q) = _
  rw [Ideal.matmul_constant_zero_apply, ← Equiv.sum_comp (ValueIdx.contrEquiv1 dot_S2000x64_S64x40_S2000x40_1_0_0_1_n_n 64 rfl rfl).symm]
  refine Finset.sum_congr rfl fun k _ => ?_
  have hk := ValueIdx.contrEquiv1_symm_val dot_S2000x64_S64x40_S2000x40_1_0_0_1_n_n 64 rfl rfl k
  have el : dot_S2000x64_S64x40_S2000x40_1_0_0_1_n_n.lhsIdx (ix2 p q) ((ValueIdx.contrEquiv1 dot_S2000x64_S64x40_S2000x40_1_0_0_1_n_n 64 rfl rfl).symm k) = ix2 p k := funext fun a => Fin.ext (by
    match a with
    | ⟨0, _⟩ => exact lhs_rows2_0 _ _
    | ⟨1, _⟩ => exact (lhs_rows2_1 _ _).trans hk)
  have er : dot_S2000x64_S64x40_S2000x40_1_0_0_1_n_n.rhsIdx (ix2 p q) ((ValueIdx.contrEquiv1 dot_S2000x64_S64x40_S2000x40_1_0_0_1_n_n 64 rfl rfl).symm k) = ix2 k q := funext fun a => Fin.ext (by
    match a with
    | ⟨0, _⟩ => exact (rhs_rows2_0 _ _).trans hk
    | ⟨1, _⟩ => exact rhs_rows2_1 _ _)
  rw [el, er]

variable (V : (c : Dev nD) → (b : Ref sig .tc) → Buf (Elt Ideal) ((c : Thread nD τ).loc b))

/-- The index maps, decided once over the 50 grid points: point `t` takes row block `t` of the left matrix and
    of the output, all their columns, and the whole right matrix. -/
theorem blocks1 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is rows 2000 t … 2000 t + 1999 of the whole-array product of the two arrays the
    region found. -/
theorem flushed1_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x128_S128x64_S100000x64_1_0_0_1_n_n none (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x64) origin]
  obtain ⟨e0, e1, e2, e3, e4, e5⟩ := blocks1 t
  funext j
  obtain ⟨p, q, rfl⟩ : ∃ (p : Fin 2000) (q : Fin 64), j = ix2 p q := ⟨j 0, j 1, eq_ix2 j⟩
  refine (rows1_apply (iblk0 V c 0 t) (iblk0 V c 1 t) p q).trans ?_
  refine Eq.trans ?_ (product1_apply (V c main_arg0) (V c main_arg2) (((cfg0.win 2).blk t).view.emb (ix2 p q))).symm
  refine Finset.sum_congr rfl fun k _ => ?_
  have hl : ((cfg0.win 0).blk t).view.emb (ix2 p k) = Cert.ReferenceIdeal.Read.lidx_main_v4 (((cfg0.win 2).blk t).view.emb (ix2 p q)) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hr : ((cfg0.win 1).blk t).view.emb (ix2 k q) = Cert.ReferenceIdeal.Read.ridx_main_v4 (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  refine congrArg₂ (fun a b : Elt Ideal .f32 => a * b) ?_ ?_
  · exact congrArg (V c main_arg0) hl
  · exact congrArg (V c main_arg2) hr

/-- An index of the output array is in point `t`'s block iff each coordinate is in the block's range on its axis. -/
theorem mem_rows1 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v27).slice (win0_2.rect t)).set ↔ _
  rw [View.set_slice_whole, Rect.mem_set_unit]
  exact Iff.rfl

/-- The 50 blocks of 2000 rows tile the 100000 rows: row `r` is in block `r / 2000`. -/
theorem cover1 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨e0, e1, e2, e3, e4, e5⟩ := blocks1 t
  have ht : t.val = (i 0).val / 2000 := rfl
  refine ⟨t, flush0_2 t, ?_⟩
  rw [mem_rows1]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

theorem final1 (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none (V c main_arg0) (V c main_arg2) :=
  (dat0 (F := Ideal) V c).arrAt_eq_of_cover 2 _ (fun t _ => flushed1_eq V c t) cover1

/-- The index maps, decided once over the 50 grid points: point `t` takes row block `t` of the left matrix and
    of the output, all their columns, and the whole right matrix. -/
theorem blocks2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT POINT `t` WRITES BACK is rows 2000 t … 2000 t + 1999 of the whole-array product of the two arrays the
    region found. -/
theorem flushed2_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S100000x64_S64x40_S100000x40_1_0_0_1_n_n none (V c main_v43) (V c main_arg4)) := by
  show (cfg2.win 2).cut (grid2.coords t) ((dat2 V c).after 2 t) = _
  rw [after2_2]
  unfold out2_2
  rw [View.canon_unit_zero origin]
  simp only [View.ld_unit_zero (S := S2000x64) origin, View.ld_unit_zero (S := S64x40) origin]
  obtain ⟨e0, e1, e2, e3, e4, e5⟩ := blocks2 t
  funext j
  obtain ⟨p, q, rfl⟩ : ∃ (p : Fin 2000) (q : Fin 40), j = ix2 p q := ⟨j 0, j 1, eq_ix2 j⟩
  refine (rows2_apply (iblk2 V c 0 t) (iblk2 V c 1 t) p q).trans ?_
  refine Eq.trans ?_ (product2_apply (V c main_v43) (V c main_arg4) (((cfg2.win 2).blk t).view.emb (ix2 p q))).symm
  refine Finset.sum_congr rfl fun k _ => ?_
  have hl : ((cfg2.win 0).blk t).view.emb (ix2 p k) = Cert.ReferenceIdeal.Read.lidx_main_v50 (((cfg2.win 2).blk t).view.emb (ix2 p q)) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  have hr : ((cfg2.win 1).blk t).view.emb (ix2 k q) = Cert.ReferenceIdeal.Read.ridx_main_v50 (((cfg2.win 2).blk t).view.emb (ix2 p q)) k := by
    funext a; apply Fin.ext
    match a with
    | ⟨0, _⟩ => show win2_1.index t (0 : Fin 2) * 64 + 1 * k.val = k.val; omega
    | ⟨1, _⟩ => show win2_1.index t (1 : Fin 2) * 40 + 1 * q.val = win2_2.index t (1 : Fin 2) * 40 + 1 * q.val; omega
  refine congrArg₂ (fun a b : Elt Ideal .f32 => a * b) ?_ ?_
  · exact congrArg (V c main_v43) hl
  · exact congrArg (V c main_arg4) hr

/-- An index of the output array is in point `t`'s block iff each coordinate is in the block's range on its axis. -/
theorem mem_rows2 (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v44).slice (win2_2.rect t)).set ↔ _
  rw [View.set_slice_whole, Rect.mem_set_unit]
  exact Iff.rfl

/-- The 50 blocks of 2000 rows tile the 100000 rows: row `r` is in block `r / 2000`. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 50 := N_2
  let t : Fin cfg2.N := ⟨(i 0).val / 2000, by rw [hN]; omega⟩
  obtain ⟨e0, e1, e2, e3, e4, e5⟩ := blocks2 t
  have ht : t.val = (i 0).val / 2000 := rfl
  refine ⟨t, flush2_2 t, ?_⟩
  rw [mem_rows2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

theorem final2 (c : Dev nD) :
    (dat2 (F := Ideal) V c).arrAt 2 cfg2.N
      = Host.dotGeneral (F := Ideal) (φ₁ := .f32) (φ₂ := .f32) Cert.ReferenceIdeal.dot_S100000x64_S64x40_S100000x40_1_0_0_1_n_n none (V c main_v43) (V c main_arg4) :=
  (dat2 (F := Ideal) V c).arrAt_eq_of_cover 2 _ (fun t _ => flushed2_eq V c t) cover2

end Cert.KernelIdeal.Dense

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Combine.lean ====
/-
  The two combine steps that follow the graph aggregations, as functions of whole arrays.

  Each step works row block by row block: 50 blocks of 2000 rows. On one block it takes the aggregated messages
  `agg`, the layer's own features `h`, one scaling factor per row (a column `d`) and one bias per feature (a row `b`),
  and forms `(agg + h * d) + b` entry by entry, the factor of row `r` multiplying every entry of that row and the
  bias of column `j` added to every entry of that column. The first step (64 features) then cuts the sum off below
  at zero and multiplies by a mask entry by entry; the second (40 features) leaves the sum as it is.

  Since an entry `(r, j)` of the result depends only on the entries `(r, j)` of `agg`, `h` and the mask, on `d (r, 0)`
  and on `b (0, j)`, and since the row blocks of `agg`, `h`, `d`, the mask and the result move together while the bias
  row stays where it is, what a block's computation writes back is that block of ONE function of the whole arrays:
  the same expression with the column spread along the rows and the row spread over all 100000 rows. The 50 blocks
  cover every row, so after the step the whole output array is that expression of the whole input arrays
  (`final1`, `final2`).
-/
import proofs.«103116_j7000796692945_1_alg».proof.Proof.Gen.KernelIdeal.Frame
import proofs.«103116_j7000796692945_1_alg».proof.Proof.Gen.ReferenceIdeal
import proofs.«103116_j7000796692945_1_alg».proof.Proof.LibKeepdims
import Idealize.ShloMosaic.Lib.Pipeline.Value
import Idealize.ShloMosaic.Lib.ValueIdx
import Idealize.ShloMosaic.Lib.ValueLayout
set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx Cert.LibKeepdims

variable (V : (c : Dev nD) → (b : Ref sig .tc) → Buf (Elt Ideal) ((c : Thread nD τ).loc b))

/-- The offsets of every load and store of the two bodies are zero, however the zeros are spelt. -/
theorem zero_offsets : (![0, 0] : Fin 2 → Nat) = fun _ => 0 := funext fun a => by fin_cases a <;> rfl

/-! ## The first combine: the same sum, cut off below at zero and masked, 64 columns -/

/-- Row `r` of the scaling column, for the entry `(r, j)` of a 64-column array. -/
abbrev scaleIdx64 (i : S100000x64.Idx) : S100000x1.Idx := fun a => match a with
  | ⟨0, _⟩ => ⟨(i 0).val, (i 0).isLt⟩
  | ⟨1, _⟩ => ⟨0, Nat.one_pos⟩

/-- Column `j` of the bias row, for the entry `(r, j)` of a 64-column array. -/
abbrev biasIdx64 (i : S100000x64.Idx) : S1x64.Idx := fun a => match a with
  | ⟨0, _⟩ => ⟨0, Nat.one_pos⟩
  | ⟨1, _⟩ => ⟨(i 1).val, (i 1).isLt⟩

/-- The first combine of whole arrays: `max ((agg + h * d) + b, 0) * mask`, the column `d` spread along the rows' 64
    entries, the row `b` spread over the 100000 rows, the zero a splat of the zero word. -/
def combine1 (h agg : FVec Ideal S100000x64 .f32) (d : FVec Ideal S100000x1 .f32) (b : FVec Ideal S1x64 .f32)
    (mask : FVec Ideal S100000x64 .f32) : FVec Ideal S100000x64 .f32 :=
  mulf (F := Ideal) (φ := .f32) (maximumf (addf (addf agg (mulf h
          (broadcastInDim Cert.ReferenceIdeal.S100000x64 ![0, 1] Cert.ReferenceIdeal.Facts₀.bcast_S100000x1_S100000x64_0_1 d)))
        (broadcastInDim Cert.ReferenceIdeal.S100000x64 ![0, 1] Cert.ReferenceIdeal.Facts₀.bcast_S1x64_S100000x64_0_1 b))
      (broadcastInDim Cert.ReferenceIdeal.S100000x64 ![] Cert.ReferenceIdeal.Facts₀.bcast_S_S100000x64
        (constant (F := Ideal) Cert.ReferenceIdeal.S_ .f32 0x00000000#32)))
    mask

/-- Entry `(r, j)` of the first combine is `max ((agg (r, j) + h (r, j) * d (r, 0)) + b (0, j)) 0 * mask (r, j)`, the
    zero being what the zero word encodes. -/
theorem combine1_apply (h agg : FVec Ideal S100000x64 .f32) (d : FVec Ideal S100000x1 .f32) (b : FVec Ideal S1x64 .f32)
    (mask : FVec Ideal S100000x64 .f32) (i : S100000x64.Idx) :
    combine1 h agg d b mask i
      = max ((agg i + h i * d (scaleIdx64 i)) + b (biasIdx64 i)) (Ideal.ofBits .f32 0x00000000#32) * mask i := by
  unfold combine1
  rw [mulf_apply, maximumf_apply, addf_apply, addf_apply, mulf_apply,
    broadcastInDim_apply _ Cert.ReferenceIdeal.Facts₀.bcast_S100000x1_S100000x64_0_1 d i (scaleIdx64 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Facts₀.bcast_S1x64_S100000x64_0_1 b i (biasIdx64 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ Cert.ReferenceIdeal.Facts₀.bcast_S_S100000x64 (constant (F := Ideal) Cert.ReferenceIdeal.S_ .f32 0x00000000#32)
      i (fun a => a.elim0) (fun a => a.elim0)]
  rfl

/-- The body's arithmetic on one block, entry `(p, q)`:
    `max ((x_agg (p, q) + x_h (p, q) * x_d (p, 0)) + x_b (0, q)) 0 * x_mask (p, q)`. -/
theorem pay1_apply (xagg xh : FVec Ideal S2000x64 .f32) (xd : FVec Ideal S2000x1 .f32) (xb : FVec Ideal S1x64 .f32)
    (xmask : FVec Ideal S2000x64 .f32) (p : Fin 2000) (q : Fin 64) :
    k1_pay1 (F := Ideal) xagg xh xd xb xmask (ix2 p q)
      = max ((xagg (ix2 p q) + xh (ix2 p q) * xd (ix2 p (0 : Fin 1))) + xb (ix2 (0 : Fin 1) q))
          (Ideal.ofBits .f32 0x00000000#32) * xmask (ix2 p q) := by
  unfold k1_pay1
  rw [shapeCast_self xagg, shapeCast_self xh, shapeCast_self xd, shapeCast_self xb]
  rw [mulf_apply, maximumf_apply, addf_apply, addf_apply, mulf_apply, broadcastTo_a1_ab_apply xd _ p q,
    broadcastTo_1b_ab_apply xb _ p q]
  rfl

/-- The printed index maps of the first combine, decided once over its 50 points: the windows of `h`, `agg`, `d` and
    the mask sit at the output's row block, the bias row at its one block, and the output's row block is the point itself. -/
theorem blockIdx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = win1_5.index t (0 : Fin 2) ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the first combine of the arrays as the region finds them. -/
theorem flushed1_eq (c : Dev nD) (t : Fin cfg1.N) :
    (dat1 (F := Ideal) V c).flushed 5 t
      = ((cfg1.win 5).blk t).view.read (Elt Ideal)
          (combine1 (V c main_v27) (V c main_v40) (V c main_v42) (V c main_v41) (V c main_arg6)) := by
  show (cfg1.win 5).cut (grid1.coords t) ((dat1 (F := Ideal) V c).after 5 t) = _
  rw [after1_5]
  unfold out1_5
  rw [View.canon_unit_zero zero_offsets]
  simp only [View.ld_unit_zero (S := S2000x64) zero_offsets, View.ld_unit_zero (S := S2000x1) zero_offsets,
    View.ld_unit_zero (S := S1x64) zero_offsets]
  obtain ⟨e00, e01, e10, e11, e20, e21, e30, e31, e40, e41, e50, e51⟩ := blockIdx1 t
  funext y
  obtain ⟨p, q, rfl⟩ : ∃ (p : Fin 2000) (q : Fin 64), y = ix2 p q := ⟨y 0, y 1, eq_ix2 y⟩
  have hp : p.val < 2000 := p.isLt
  have hq : q.val < 64 := q.isLt
  refine (pay1_apply (iblk1 V c 1 t) (iblk1 V c 0 t) (iblk1 V c 2 t) (iblk1 V c 3 t) (iblk1 V c 4 t) p q).trans ?_
  refine Eq.trans ?_ (combine1_apply (V c main_v27) (V c main_v40) (V c main_v42) (V c main_v41) (V c main_arg6)
    (((cfg1.win 5).blk t).view.emb (ix2 p q))).symm
  have h0 : ((cfg1.win 0).blk t).view.emb (ix2 p q) = ((cfg1.win 5).blk t).view.emb (ix2 p q) := by
    funext a; apply Fin.ext
    match a with
    | ⟨0, _⟩ => show win1_0.index t (0 : Fin 2) * 2000 + 1 * p.val = win1_5.index t (0 : Fin 2) * 2000 + 1 * p.val; omega
    | ⟨1, _⟩ => show win1_0.index t (1 : Fin 2) * 64 + 1 * q.val = win1_5.index t (1 : Fin 2) * 64 + 1 * q.val; omega
  have h1 : ((cfg1.win 1).blk t).view.emb (ix2 p q) = ((cfg1.win 5).blk t).view.emb (ix2 p q) := by
    funext a; apply Fin.ext
    match a with
    | ⟨0, _⟩ => show win1_1.index t (0 : Fin 2) * 2000 + 1 * p.val = win1_5.index t (0 : Fin 2) * 2000 + 1 * p.val; omega
    | ⟨1, _⟩ => show win1_1.index t (1 : Fin 2) * 64 + 1 * q.val = win1_5.index t (1 : Fin 2) * 64 + 1 * q.val; omega
  have h2 : ((cfg1.win 2).blk t).view.emb (ix2 p (0 : Fin 1)) = scaleIdx64 (((cfg1.win 5).blk t).view.emb (ix2 p q)) := by
    funext a; apply Fin.ext
    match a with
    | ⟨0, _⟩ => show win1_2.index t (0 : Fin 2) * 2000 + 1 * p.val = win1_5.index t (0 : Fin 2) * 2000 + 1 * p.val; omega
    | ⟨1, _⟩ => show win1_2.index t (1 : Fin 2) * 1 + 1 * 0 = 0; omega
  have h3 : ((cfg1.win 3).blk t).view.emb (ix2 (0 : Fin 1) q) = biasIdx64 (((cfg1.win 5).blk t).view.emb (ix2 p q)) := by
    funext a; apply Fin.ext
    match a with
    | ⟨0, _⟩ => show win1_3.index t (0 : Fin 2) * 1 + 1 * 0 = 0; omega
    | ⟨1, _⟩ => show win1_3.index t (1 : Fin 2) * 64 + 1 * q.val = win1_5.index t (1 : Fin 2) * 64 + 1 * q.val; omega
  have h4 : ((cfg1.win 4).blk t).view.emb (ix2 p q) = ((cfg1.win 5).blk t).view.emb (ix2 p q) := by
    funext a; apply Fin.ext
    match a with
    | ⟨0, _⟩ => show win1_4.index t (0 : Fin 2) * 2000 + 1 * p.val = win1_5.index t (0 : Fin 2) * 2000 + 1 * p.val; omega
    | ⟨1, _⟩ => show win1_4.index t (1 : Fin 2) * 64 + 1 * q.val = win1_5.index t (1 : Fin 2) * 64 + 1 * q.val; omega
  have v0 : iblk1 V c 0 t (ix2 p q) = V c main_v27 (((cfg1.win 5).blk t).view.emb (ix2 p q)) := by
    show V c main_v27 (((cfg1.win 0).blk t).view.emb (ix2 p q)) = _; rw [h0]
  have v1 : iblk1 V c 1 t (ix2 p q) = V c main_v40 (((cfg1.win 5).blk t).view.emb (ix2 p q)) := by
    show V c main_v40 (((cfg1.win 1).blk t).view.emb (ix2 p q)) = _; rw [h1]
  have v2 : iblk1 V c 2 t (ix2 p (0 : Fin 1)) = V c main_v42 (scaleIdx64 (((cfg1.win 5).blk t).view.emb (ix2 p q))) := by
    show V c main_v42 (((cfg1.win 2).blk t).view.emb (ix2 p (0 : Fin 1))) = _; rw [h2]
  have v3 : iblk1 V c 3 t (ix2 (0 : Fin 1) q) = V c main_v41 (biasIdx64 (((cfg1.win 5).blk t).view.emb (ix2 p q))) := by
    show V c main_v41 (((cfg1.win 3).blk t).view.emb (ix2 (0 : Fin 1) q)) = _; rw [h3]
  have v4 : iblk1 V c 4 t (ix2 p q) = V c main_arg6 (((cfg1.win 5).blk t).view.emb (ix2 p q)) := by
    show V c main_arg6 (((cfg1.win 4).blk t).view.emb (ix2 p q)) = _; rw [h4]
  rw [v0, v1, v2, v3, v4]

/-- An index of the array is in point `t`'s block iff each coordinate is in the block's range on its axis. -/
theorem mem_block1 (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v43).slice (win1_5.rect t)).set ↔ _
  rw [View.set_slice_whole, Rect.mem_set_unit]
  exact Iff.rfl

/-- The 50 blocks of 2000 rows cover the whole array: row `r` lies in the block of point `r / 2000`. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 2000 < cfg1.N := by
    have hN : cfg1.N = 50 := N_1
    rw [hN]; omega
  obtain ⟨t, ht⟩ : ∃ t : Fin cfg1.N, t.val = (i 0).val / 2000 := ⟨⟨_, hlt⟩, rfl⟩
  obtain ⟨-, -, -, -, -, -, -, -, -, -, e50, e51⟩ := blockIdx1 t
  refine ⟨t, flush1_5 t, ?_⟩
  rw [mem_block1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 64 ≤ (i 1).val ∧ (i 1).val < win1_5.index t (1 : Fin 2) * 64 + 64
    omega

/-- After the first combine the whole output array is `max ((agg + h * d) + b, 0) * mask` of the whole arrays the
    step found: every block is that function's block, and the blocks cover the array. -/
theorem final1 (c : Dev nD) :
    (dat1 (F := Ideal) V c).arrAt 5 cfg1.N
      = mulf (F := Ideal) (φ := .f32) (maximumf (addf (addf (V c main_v40) (mulf (V c main_v27)
            (broadcastInDim Cert.ReferenceIdeal.S100000x64 ![0, 1] Cert.ReferenceIdeal.Facts₀.bcast_S100000x1_S100000x64_0_1 (V c main_v42))))
            (broadcastInDim Cert.ReferenceIdeal.S100000x64 ![0, 1] Cert.ReferenceIdeal.Facts₀.bcast_S1x64_S100000x64_0_1 (V c main_v41)))
          (broadcastInDim Cert.ReferenceIdeal.S100000x64 ![] Cert.ReferenceIdeal.Facts₀.bcast_S_S100000x64 (constant (F := Ideal) Cert.ReferenceIdeal.S_ .f32 0x00000000#32)))
        (V c main_arg6) :=
  (dat1 (F := Ideal) V c).arrAt_eq_of_cover 5
    (combine1 (V c main_v27) (V c main_v40) (V c main_v42) (V c main_v41) (V c main_arg6))
    (fun t _ => flushed1_eq V c t) covered1

/-! ## The second combine: aggregated messages plus scaled own features plus bias, 40 columns -/

/-- Row `r` of the scaling column, for the entry `(r, j)` of a 40-column array. -/
abbrev scaleIdx40 (i : S100000x40.Idx) : S100000x1.Idx := fun a => match a with
  | ⟨0, _⟩ => ⟨(i 0).val, (i 0).isLt⟩
  | ⟨1, _⟩ => ⟨0, Nat.one_pos⟩

/-- Column `j` of the bias row, for the entry `(r, j)` of a 40-column array. -/
abbrev biasIdx40 (i : S100000x40.Idx) : S1x40.Idx := fun a => match a with
  | ⟨0, _⟩ => ⟨0, Nat.one_pos⟩
  | ⟨1, _⟩ => ⟨(i 1).val, (i 1).isLt⟩

/-- The second combine of whole arrays: `(agg + h * d) + b`, the column `d` spread along the rows' 40 entries and
    the row `b` spread over the 100000 rows. -/
def combine2 (h agg : FVec Ideal S100000x40 .f32) (d : FVec Ideal S100000x1 .f32) (b : FVec Ideal S1x40 .f32) :
    FVec Ideal S100000x40 .f32 :=
  addf (F := Ideal) (φ := .f32) (addf agg (mulf h
      (broadcastInDim Cert.ReferenceIdeal.S100000x40 ![0, 1] Cert.ReferenceIdeal.Facts₀.bcast_S100000x1_S100000x40_0_1 d)))
    (broadcastInDim Cert.ReferenceIdeal.S100000x40 ![0, 1] Cert.ReferenceIdeal.Facts₀.bcast_S1x40_S100000x40_0_1 b)

/-- Entry `(r, j)` of the second combine is `(agg (r, j) + h (r, j) * d (r, 0)) + b (0, j)`. -/
theorem combine2_apply (h agg : FVec Ideal S100000x40 .f32) (d : FVec Ideal S100000x1 .f32) (b : FVec Ideal S1x40 .f32)
    (i : S100000x40.Idx) :
    combine2 h agg d b i = (agg i + h i * d (scaleIdx40 i)) + b (biasIdx40 i) := by
  unfold combine2
  rw [addf_apply, addf_apply, mulf_apply,
    broadcastInDim_apply _ Cert.ReferenceIdeal.Facts₀.bcast_S100000x1_S100000x40_0_1 d i (scaleIdx40 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Facts₀.bcast_S1x40_S100000x40_0_1 b i (biasIdx40 i) (fun a => match a with
      | ⟨0, _⟩ => by show 0 = if (1 : Nat) = 1 then 0 else (i 0).val; rw [if_pos rfl]
      | ⟨1, _⟩ => by show (i 1).val = if (40 : Nat) = 1 then 0 else (i 1).val; rw [if_neg (by decide)])]

/-- The body's arithmetic on one block, entry `(p, q)`: `(x_agg (p, q) + x_h (p, q) * x_d (p, 0)) + x_b (0, q)`. -/
theorem pay2_apply (xagg xh : FVec Ideal S2000x40 .f32) (xd : FVec Ideal S2000x1 .f32) (xb : FVec Ideal S1x40 .f32)
    (p : Fin 2000) (q : Fin 40) :
    k3_pay1 (F := Ideal) xagg xh xd xb (ix2 p q)
      = (xagg (ix2 p q) + xh (ix2 p q) * xd (ix2 p (0 : Fin 1))) + xb (ix2 (0 : Fin 1) q) := by
  unfold k3_pay1
  rw [shapeCast_self xagg, shapeCast_self xh, shapeCast_self xd, shapeCast_self xb]
  rw [addf_apply, addf_apply, mulf_apply, broadcastTo_a1_ab_apply xd _ p q, broadcastTo_1b_ab_apply xb _ p q]

/-- The printed index maps of the second combine, decided once over its 50 points: the windows of `h`, `agg` and `d`
    sit at the output's row block, the bias row at its one block, and the output's row block is the point itself. -/
theorem blockIdx2 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- WHAT POINT `t` WRITES BACK is block `t` of the second combine of the arrays as the region finds them. -/
theorem flushed2_eq (c : Dev nD) (t : Fin cfg3.N) :
    (dat3 (F := Ideal) V c).flushed 4 t
      = ((cfg3.win 4).blk t).view.read (Elt Ideal) (combine2 (V c main_v44) (V c main_v57) (V c main_v59) (V c main_v58)) := by
  show (cfg3.win 4).cut (grid3.coords t) ((dat3 (F := Ideal) V c).after 4 t) = _
  rw [after3_4]
  unfold out3_4
  rw [View.canon_unit_zero zero_offsets]
  simp only [View.ld_unit_zero (S := S2000x40) zero_offsets, View.ld_unit_zero (S := S2000x1) zero_offsets,
    View.ld_unit_zero (S := S1x40) zero_offsets]
  obtain ⟨e00, e01, e10, e11, e20, e21, e30, e31, e40, e41⟩ := blockIdx2 t
  funext y
  obtain ⟨p, q, rfl⟩ : ∃ (p : Fin 2000) (q : Fin 40), y = ix2 p q := ⟨y 0, y 1, eq_ix2 y⟩
  have hp : p.val < 2000 := p.isLt
  have hq : q.val < 40 := q.isLt
  refine (pay2_apply (iblk3 V c 1 t) (iblk3 V c 0 t) (iblk3 V c 2 t) (iblk3 V c 3 t) p q).trans ?_
  refine Eq.trans ?_ (combine2_apply (V c main_v44) (V c main_v57) (V c main_v59) (V c main_v58)
    (((cfg3.win 4).blk t).view.emb (ix2 p q))).symm
  have h0 : ((cfg3.win 0).blk t).view.emb (ix2 p q) = ((cfg3.win 4).blk t).view.emb (ix2 p q) := by
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 40 + 1 * q.val = win3_4.index t (1 : Fin 2) * 40 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 40 + 1 * q.val = win3_4.index t (1 : Fin 2) * 40 + 1 * q.val; omega
  have h2 : ((cfg3.win 2).blk t).view.emb (ix2 p (0 : Fin 1)) = scaleIdx40 (((cfg3.win 4).blk t).view.emb (ix2 p q)) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  have h3 : ((cfg3.win 3).blk t).view.emb (ix2 (0 : Fin 1) q) = biasIdx40 (((cfg3.win 4).blk t).view.emb (ix2 p q)) := by
    funext a; apply Fin.ext
    match a with
    | ⟨0, _⟩ => show win3_3.index t (0 : Fin 2) * 1 + 1 * 0 = 0; omega
    | ⟨1, _⟩ => show win3_3.index t (1 : Fin 2) * 40 + 1 * q.val = win3_4.index t (1 : Fin 2) * 40 + 1 * q.val; omega
  have v0 : iblk3 V c 0 t (ix2 p q) = V c main_v44 (((cfg3.win 4).blk t).view.emb (ix2 p q)) := by
    show V c main_v44 (((cfg3.win 0).blk t).view.emb (ix2 p q)) = _; rw [h0]
  have v1 : iblk3 V c 1 t (ix2 p q) = V c main_v57 (((cfg3.win 4).blk t).view.emb (ix2 p q)) := by
    show V c main_v57 (((cfg3.win 1).blk t).view.emb (ix2 p q)) = _; rw [h1]
  have v2 : iblk3 V c 2 t (ix2 p (0 : Fin 1)) = V c main_v59 (scaleIdx40 (((cfg3.win 4).blk t).view.emb (ix2 p q))) := by
    show V c main_v59 (((cfg3.win 2).blk t).view.emb (ix2 p (0 : Fin 1))) = _; rw [h2]
  have v3 : iblk3 V c 3 t (ix2 (0 : Fin 1) q) = V c main_v58 (biasIdx40 (((cfg3.win 4).blk t).view.emb (ix2 p q))) := by
    show V c main_v58 (((cfg3.win 3).blk t).view.emb (ix2 (0 : Fin 1) q)) = _; rw [h3]
  rw [v0, v1, v2, v3]

/-- An index of the array is in point `t`'s block iff each coordinate is in the block's range on its axis. -/
theorem mem_block2 (t : Fin cfg3.N) (i : S100000x40.Idx) :
    i ∈ ((cfg3.win 4).blk t).view.set ↔ ∀ a : Fin 2, win3_4.index t a * S2000x40.size a ≤ (i a).val
      ∧ (i a).val < win3_4.index t a * S2000x40.size a + S2000x40.size a := by
  show i ∈ ((View.whole main_v60).slice (win3_4.rect t)).set ↔ _
  rw [View.set_slice_whole, Rect.mem_set_unit]
  exact Iff.rfl

/-- The 50 blocks of 2000 rows cover the whole array: row `r` lies in the block of point `r / 2000`. -/
theorem covered2 (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  have hlt : (i 0).val / 2000 < cfg3.N := by
    have hN : cfg3.N = 50 := N_3
    rw [hN]; omega
  obtain ⟨t, ht⟩ : ∃ t : Fin cfg3.N, t.val = (i 0).val / 2000 := ⟨⟨_, hlt⟩, rfl⟩
  obtain ⟨-, -, -, -, -, -, -, -, e40, e41⟩ := blockIdx2 t
  refine ⟨t, flush3_4 t, ?_⟩
  rw [mem_block2]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 40 ≤ (i 1).val ∧ (i 1).val < win3_4.index t (1 : Fin 2) * 40 + 40
    omega

/-- After the second combine the whole output array is `(agg + h * d) + b` of the whole arrays the step found:
    every block is that function's block, and the blocks cover the array. -/
theorem final2 (c : Dev nD) :
    (dat3 (F := Ideal) V c).arrAt 4 cfg3.N
      = addf (F := Ideal) (φ := .f32) (addf (V c main_v57) (mulf (V c main_v44)
            (broadcastInDim Cert.ReferenceIdeal.S100000x40 ![0, 1] Cert.ReferenceIdeal.Facts₀.bcast_S100000x1_S100000x40_0_1 (V c main_v59))))
          (broadcastInDim Cert.ReferenceIdeal.S100000x40 ![0, 1] Cert.ReferenceIdeal.Facts₀.bcast_S1x40_S100000x40_0_1 (V c main_v58)) :=
  (dat3 (F := Ideal) V c).arrAt_eq_of_cover 4 (combine2 (V c main_v44) (V c main_v57) (V c main_v59) (V c main_v58))
    (fun t _ => flushed2_eq V c t) covered2

end Cert.KernelIdeal.Combine

end
-- ==== Proof.Layers.lean ====
/-
  What every region of the program finds and leaves, as a stage of the reference's computation of the launch arguments.

  The program is a two-layer graph convolution. From the edge list it computes, once, the inverse square roots of the
  node degrees and each edge's normalisation; each layer multiplies the node features by a weight matrix, gathers the
  products along the edges' sources, scales them, adds them up at the edges' targets, and adds the node's own scaled
  product and a bias (the first layer then clamps at zero and multiplies by a mask). The reference does the same on the
  host and recomputes the degree terms in its second layer; those terms are the same expressions of the edge list, so
  the recomputed ones are the first ones.

  Here the buffer contents at each boundary between a stretch of host operations and a region are walked forward from
  the launch: a host stretch's result is its operations' composed term of what it read; a dense region leaves the whole
  product of the arrays it found; a combine region leaves the whole pointwise expression of the arrays it found; a
  buffer nobody writes keeps its contents. A vector viewed as a one-column (or one-row) matrix by a reshape is the same
  array as its broadcast along a new unit axis, which is how the reference spells it.
-/
import proofs.«103116_j7000796692945_1_alg».proof.Proof.Gen.KernelIdeal.Frame
import proofs.«103116_j7000796692945_1_alg».proof.Proof.Gen.ReferenceIdeal.Read
import proofs.«103116_j7000796692945_1_alg».proof.Proof.Dense
import proofs.«103116_j7000796692945_1_alg».proof.Proof.Combine
import Idealize.ShloMosaic.Lib.StableHlo.Run
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo
open Cert.ReferenceIdeal.Read (val_main_v1 val_main_v3 val_main_v4 val_main_v26 val_main_v39 val_main_v40 val_main_v41 val_main_v45
  val_main_v49 val_main_v50 val_main_v85 val_main_v87 val_main_v91 val_main_v93 val_main_v41_apply val_main_v45_apply
  val_main_v87_apply val_main_v91_apply idx_main_v41 idx_main_v45 idx_main_v87 idx_main_v91)

variable (m : (ℓ : Loc nD τ sig) → Buf (Elt Ideal) ℓ) (ρ : Dev nD → PrngReg)

/-! ## A vector as a one-row or one-column matrix: the reshape is the broadcast along a new unit axis -/

/-- A vector of 64 entries reshaped to one row is its broadcast along a new leading unit axis. -/
theorem row64_of_vec (b : (⟨Cert.ReferenceIdeal.S64, .f32⟩ : BufTy).Contents (Elt Ideal)) (h : Cert.ReferenceIdeal.S64.ShapeCasts Cert.ReferenceIdeal.S1x64) :
    shapeCast Cert.ReferenceIdeal.S1x64 b h = val_main_v45 (F := Ideal) b := by
  funext i
  rw [val_main_v45_apply]
  exact shapeCast_apply b h i (idx_main_v45 i) (by
    rw [Shape.rowMajor_val_two, Shape.rowMajor_val_one]
    have h0 : (i 0).val < 1 := (i 0).isLt
    show (i 1).val = (i 0).val * 64 + (i 1).val
    omega)

/-- A vector of 40 entries reshaped to one row is its broadcast along a new leading unit axis. -/
theorem row40_of_vec (b : (⟨Cert.ReferenceIdeal.S40, .f32⟩ : BufTy).Contents (Elt Ideal)) (h : Cert.ReferenceIdeal.S40.ShapeCasts Cert.ReferenceIdeal.S1x40) :
    shapeCast Cert.ReferenceIdeal.S1x40 b h = val_main_v91 (F := Ideal) b := by
  funext i
  rw [val_main_v91_apply]
  exact shapeCast_apply b h i (idx_main_v91 i) (by
    rw [Shape.rowMajor_val_two, Shape.rowMajor_val_one]
    have h0 : (i 0).val < 1 := (i 0).isLt
    show (i 1).val = (i 0).val * 40 + (i 1).val
    omega)

/-- A vector with one entry per node reshaped to one column reads, at row `r`, the vector's entry `r`. -/
theorem col_of_vec_apply (d : (⟨Cert.ReferenceIdeal.S100000, .f32⟩ : BufTy).Contents (Elt Ideal)) (h : Cert.ReferenceIdeal.S100000.ShapeCasts Cert.ReferenceIdeal.S100000x1)
    (i : Cert.ReferenceIdeal.S100000x1.Idx) : shapeCast Cert.ReferenceIdeal.S100000x1 d h i = d (idx_main_v41 i) :=
  shapeCast_apply d h i (idx_main_v41 i) (by
    rw [Shape.rowMajor_val_two, Shape.rowMajor_val_one]
    have h1 : (i 1).val < 1 := (i 1).isLt
    show (i 0).val = (i 0).val * 1 + (i 1).val
    omega)

/-- The squared inverse square roots reshaped to one column are their broadcast along a new trailing unit axis. -/
theorem col_of_dinv2 (x1 : (⟨Cert.ReferenceIdeal.S2x1600000, .i32⟩ : BufTy).Contents (Elt Ideal)) (h : Cert.ReferenceIdeal.S100000.ShapeCasts Cert.ReferenceIdeal.S100000x1) :
    shapeCast Cert.ReferenceIdeal.S100000x1 (val_main_v40 (F := Ideal) x1) h = val_main_v41 (F := Ideal) x1 := by
  funext i
  rw [val_main_v41_apply]
  exact col_of_vec_apply _ h i

/-- The same for the reference's second layer, which recomputes the same squared inverse square roots. -/
theorem col_of_dinv2' (x1 : (⟨Cert.ReferenceIdeal.S2x1600000, .i32⟩ : BufTy).Contents (Elt Ideal)) (h : Cert.ReferenceIdeal.S100000.ShapeCasts Cert.ReferenceIdeal.S100000x1) :
    shapeCast Cert.ReferenceIdeal.S100000x1 (val_main_v40 (F := Ideal) x1) h = val_main_v87 (F := Ideal) x1 := by
  funext i
  rw [val_main_v87_apply]
  exact (col_of_vec_apply _ h i).trans rfl

/-! ## After the first host stretch: the edge list's terms, and the arguments untouched -/

theorem W1_arg0 (c : Dev nD) : W1 m ρ c (Proc.devRef .tc main_arg0) = (m ((c : Thread nD τ).loc main_arg0)) := by
  show StableHlo.after hostOps0 (W0 m ρ c) (Proc.devRef .tc main_arg0) = _
  simp only [hostOps0]
  after_results
theorem W1_arg2 (c : Dev nD) : W1 m ρ c (Proc.devRef .tc main_arg2) = (m ((c : Thread nD τ).loc main_arg2)) := by
  show StableHlo.after hostOps0 (W0 m ρ c) (Proc.devRef .tc main_arg2) = _
  simp only [hostOps0]
  after_results
theorem W1_arg3 (c : Dev nD) : W1 m ρ c (Proc.devRef .tc main_arg3) = (m ((c : Thread nD τ).loc main_arg3)) := by
  show StableHlo.after hostOps0 (W0 m ρ c) (Proc.devRef .tc main_arg3) = _
  simp only [hostOps0]
  after_results
theorem W1_arg4 (c : Dev nD) : W1 m ρ c (Proc.devRef .tc main_arg4) = (m ((c : Thread nD τ).loc main_arg4)) := by
  show StableHlo.after hostOps0 (W0 m ρ c) (Proc.devRef .tc main_arg4) = _
  simp only [hostOps0]
  after_results
theorem W1_arg5 (c : Dev nD) : W1 m ρ c (Proc.devRef .tc main_arg5) = (m ((c : Thread nD τ).loc main_arg5)) := by
  show StableHlo.after hostOps0 (W0 m ρ c) (Proc.devRef .tc main_arg5) = _
  simp only [hostOps0]
  after_results
theorem W1_arg6 (c : Dev nD) : W1 m ρ c (Proc.devRef .tc main_arg6) = (m ((c : Thread nD τ).loc main_arg6)) := by
  show StableHlo.after hostOps0 (W0 m ρ c) (Proc.devRef .tc main_arg6) = _
  simp only [hostOps0]
  after_results
theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  simp only [hostOps0]
  after_results
  rfl
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  simp only [hostOps0]
  after_results
  rfl
/-- The squared inverse square root of the degrees. -/
theorem W1_v11 (c : Dev nD) : W1 m ρ c (Proc.devRef .tc main_v11) = val_main_v40 (F := Ideal) (m ((c : Thread nD τ).loc main_arg1)) := by
  show StableHlo.after hostOps0 (W0 m ρ c) (Proc.devRef .tc main_v11) = _
  simp only [hostOps0]
  after_results_simp
  rfl
/-- Each edge's normalisation. -/
theorem W1_v26 (c : Dev nD) : W1 m ρ c (Proc.devRef .tc main_v26) = val_main_v26 (F := Ideal) (m ((c : Thread nD τ).loc main_arg1)) := by
  show StableHlo.after hostOps0 (W0 m ρ c) (Proc.devRef .tc main_v26) = _
  simp only [hostOps0]
  after_results_simp
  rfl

/-! ## After the first dense region: the first layer's product -/

theorem W2_v1 (c : Dev nD) : W2 m ρ c (Proc.devRef .tc main_v1) = val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)
theorem W2_v11 (c : Dev nD) : W2 m ρ c (Proc.devRef .tc main_v11) = val_main_v40 (F := Ideal) (m ((c : Thread nD τ).loc main_arg1)) :=
  (W2_of_ne m ρ c main_v11 (by decide)).trans (W1_v11 m ρ c)
theorem W2_v26 (c : Dev nD) : W2 m ρ c (Proc.devRef .tc main_v26) = val_main_v26 (F := Ideal) (m ((c : Thread nD τ).loc main_arg1)) :=
  (W2_of_ne m ρ c main_v26 (by decide)).trans (W1_v26 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
/-- The node features times the first weight matrix. -/
theorem W2_v27 (c : Dev nD) : W2 m ρ c (Proc.devRef .tc main_v27) = val_main_v4 (F := Ideal) (m ((c : Thread nD τ).loc main_arg0)) (m ((c : Thread nD τ).loc main_arg2)) := by
  refine (W2_arr m ρ c 2).trans ((Dense.final1 (V1 m ρ) c).trans ?_)
  rw [show V1 m ρ c main_arg0 = _ from W1_arg0 m ρ c, show V1 m ρ c main_arg2 = _ from W1_arg2 m ρ c]
  rfl

/-! ## After the second host stretch: the first aggregation, and the column and the row the combine region reads -/

theorem W3_v27 (c : Dev nD) : W3 m ρ c (Proc.devRef .tc main_v27) = val_main_v4 (F := Ideal) (m ((c : Thread nD τ).loc main_arg0)) (m ((c : Thread nD τ).loc main_arg2)) := by
  show StableHlo.after hostOps1 (W2 m ρ c) (Proc.devRef .tc main_v27) = _
  simp only [hostOps1]
  after_results
  exact W2_v27 m ρ c
theorem W3_arg6 (c : Dev nD) : W3 m ρ c (Proc.devRef .tc main_arg6) = (m ((c : Thread nD τ).loc main_arg6)) := by
  show StableHlo.after hostOps1 (W2 m ρ c) (Proc.devRef .tc main_arg6) = _
  simp only [hostOps1]
  after_results
  exact W2_arg6 m ρ c
set_option maxHeartbeats 4000000 in
/-- The messages along the edges, summed at their targets. -/
theorem W3_v40 (c : Dev nD) : W3 m ρ c (Proc.devRef .tc main_v40) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  simp only [hostOps1]
  after_results_simp
  rw [W2_v3 m ρ c, W2_v27 m ρ c, W2_v1 m ρ c, W2_v26 m ρ c]
  rfl
/-- The bias as a one-row matrix: the reshape of a vector to one row is its broadcast along a new leading unit axis. -/
theorem W3_v41 (c : Dev nD) : W3 m ρ c (Proc.devRef .tc main_v41) = val_main_v45 (F := Ideal) (m ((c : Thread nD τ).loc main_arg3)) := by
  show StableHlo.after hostOps1 (W2 m ρ c) (Proc.devRef .tc main_v41) = _
  simp only [hostOps1]
  after_results
  rw [W2_arg3 m ρ c]
  exact row64_of_vec _ _
/-- The squared inverse square roots as a one-column matrix: the reshape of a vector to one column is its broadcast along
    a new trailing unit axis. -/
theorem W3_v42 (c : Dev nD) : W3 m ρ c (Proc.devRef .tc main_v42) = val_main_v41 (F := Ideal) (m ((c : Thread nD τ).loc main_arg1)) := by
  show StableHlo.after hostOps1 (W2 m ρ c) (Proc.devRef .tc main_v42) = _
  simp only [hostOps1]
  after_results
  rw [W2_v11 m ρ c]
  exact col_of_dinv2 _ _
theorem W3_v1 (c : Dev nD) : W3 m ρ c (Proc.devRef .tc main_v1) = val_main_v1 (F := Ideal) (m ((c : Thread nD τ).loc main_arg1)) := by
  show StableHlo.after hostOps1 (W2 m ρ c) (Proc.devRef .tc main_v1) = _
  simp only [hostOps1]
  after_results
  exact W2_v1 m ρ c
theorem W3_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  simp only [hostOps1]
  after_results
  exact W2_v3 m ρ c
theorem W3_v11 (c : Dev nD) : W3 m ρ c (Proc.devRef .tc main_v11) = val_main_v40 (F := Ideal) (m ((c : Thread nD τ).loc main_arg1)) := by
  show StableHlo.after hostOps1 (W2 m ρ c) (Proc.devRef .tc main_v11) = _
  simp only [hostOps1]
  after_results
  exact W2_v11 m ρ c
theorem W3_v26 (c : Dev nD) : W3 m ρ c (Proc.devRef .tc main_v26) = val_main_v26 (F := Ideal) (m ((c : Thread nD τ).loc main_arg1)) := by
  show StableHlo.after hostOps1 (W2 m ρ c) (Proc.devRef .tc main_v26) = _
  simp only [hostOps1]
  after_results
  exact W2_v26 m ρ c
theorem W3_arg4 (c : Dev nD) : W3 m ρ c (Proc.devRef .tc main_arg4) = (m ((c : Thread nD τ).loc main_arg4)) := by
  show StableHlo.after hostOps1 (W2 m ρ c) (Proc.devRef .tc main_arg4) = _
  simp only [hostOps1]
  after_results
  exact W2_arg4 m ρ c
theorem W3_arg5 (c : Dev nD) : W3 m ρ c (Proc.devRef .tc main_arg5) = (m ((c : Thread nD τ).loc main_arg5)) := by
  show StableHlo.after hostOps1 (W2 m ρ c) (Proc.devRef .tc main_arg5) = _
  simp only [hostOps1]
  after_results
  exact W2_arg5 m ρ c

/-! ## After the first combine region: the first layer's output -/

/-- The aggregation plus the node's own scaled product plus the bias, clamped at zero, times the mask. -/
theorem W4_v43 (c : Dev nD) : W4 m ρ c (Proc.devRef .tc main_v43) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (W4_arr m ρ c 5).trans ((Combine.final1 (V3 m ρ) c).trans ?_)
  rw [show V3 m ρ c main_v40 = _ from W3_v40 m ρ c, show V3 m ρ c main_v27 = _ from W3_v27 m ρ c, show V3 m ρ c main_v42 = _ from W3_v42 m ρ c,
    show V3 m ρ c main_v41 = _ from W3_v41 m ρ c, show V3 m ρ c main_arg6 = _ from W3_arg6 m ρ c]
  rfl
theorem W4_v1 (c : Dev nD) : W4 m ρ c (Proc.devRef .tc main_v1) = val_main_v1 (F := Ideal) (m ((c : Thread nD τ).loc main_arg1)) :=
  (W4_of_ne m ρ c main_v1 (by decide)).trans (W3_v1 m ρ c)
theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)
theorem W4_v11 (c : Dev nD) : W4 m ρ c (Proc.devRef .tc main_v11) = val_main_v40 (F := Ideal) (m ((c : Thread nD τ).loc main_arg1)) :=
  (W4_of_ne m ρ c main_v11 (by decide)).trans (W3_v11 m ρ c)
theorem W4_v26 (c : Dev nD) : W4 m ρ c (Proc.devRef .tc main_v26) = val_main_v26 (F := Ideal) (m ((c : Thread nD τ).loc main_arg1)) :=
  (W4_of_ne m ρ c main_v26 (by decide)).trans (W3_v26 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

/-! ## After the second dense region: the second layer's product -/

theorem W5_v44 (c : Dev nD) : W5 m ρ c (Proc.devRef .tc main_v44) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (W5_arr m ρ c 2).trans ((Dense.final2 (V4 m ρ) c).trans ?_)
  rw [show V4 m ρ c main_v43 = _ from W4_v43 m ρ c, show V4 m ρ c main_arg4 = _ from W4_arg4 m ρ c]
  rfl
theorem W5_v1 (c : Dev nD) : W5 m ρ c (Proc.devRef .tc main_v1) = val_main_v1 (F := Ideal) (m ((c : Thread nD τ).loc main_arg1)) :=
  (W5_of_ne m ρ c main_v1 (by decide)).trans (W4_v1 m ρ c)
theorem W5_v3 (c : Dev nD) : W5 m ρ c (Proc.devRef .tc main_v3) = val_main_v3 (F := Ideal) (m ((c : Thread nD τ).loc main_arg1)) :=
  (W5_of_ne m ρ c main_v3 (by decide)).trans (W4_v3 m ρ c)
theorem W5_v11 (c : Dev nD) : W5 m ρ c (Proc.devRef .tc main_v11) = val_main_v40 (F := Ideal) (m ((c : Thread nD τ).loc main_arg1)) :=
  (W5_of_ne m ρ c main_v11 (by decide)).trans (W4_v11 m ρ c)
theorem W5_v26 (c : Dev nD) : W5 m ρ c (Proc.devRef .tc main_v26) = val_main_v26 (F := Ideal) (m ((c : Thread nD τ).loc main_arg1)) :=
  (W5_of_ne m ρ c main_v26 (by decide)).trans (W4_v26 m ρ c)
theorem W5_arg5 (c : Dev nD) : W5 m ρ c (Proc.devRef .tc main_arg5) = (m ((c : Thread nD τ).loc main_arg5)) :=
  (W5_of_ne m ρ c main_arg5 (by decide)).trans (W4_arg5 m ρ c)

/-! ## After the third host stretch: the second aggregation, and the column and the row the last region reads -/

theorem W6_v44 (c : Dev nD) : W6 m ρ c (Proc.devRef .tc main_v44) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  show StableHlo.after hostOps3 (W5 m ρ c) (Proc.devRef .tc main_v44) = _
  simp only [hostOps3]
  after_results
  exact W5_v44 m ρ c
set_option maxHeartbeats 4000000 in
/-- The second layer's messages summed at the edges' targets; the reference's recomputed normalisation is the first one. -/
theorem W6_v57 (c : Dev nD) : W6 m ρ c (Proc.devRef .tc main_v57) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  show StableHlo.after hostOps3 (W5 m ρ c) (Proc.devRef .tc main_v57) = _
  simp only [hostOps3]
  after_results_simp
  rw [W5_v3 m ρ c, W5_v44 m ρ c, W5_v1 m ρ c, W5_v26 m ρ c]
  rfl
theorem W6_v58 (c : Dev nD) : W6 m ρ c (Proc.devRef .tc main_v58) = val_main_v91 (F := Ideal) (m ((c : Thread nD τ).loc main_arg5)) := by
  show StableHlo.after hostOps3 (W5 m ρ c) (Proc.devRef .tc main_v58) = _
  simp only [hostOps3]
  after_results
  rw [W5_arg5 m ρ c]
  exact row40_of_vec _ _
/-- The reference's recomputed squared inverse square roots are the first ones. -/
theorem W6_v59 (c : Dev nD) : W6 m ρ c (Proc.devRef .tc main_v59) = val_main_v87 (F := Ideal) (m ((c : Thread nD τ).loc main_arg1)) := by
  show StableHlo.after hostOps3 (W5 m ρ c) (Proc.devRef .tc main_v59) = _
  simp only [hostOps3]
  after_results
  rw [W5_v11 m ρ c]
  exact col_of_dinv2' _ _

/-! ## After the last region: the result -/

/-- The result buffer ends at the reference's last stage of the launch arguments. -/
theorem W7_v60 (c : Dev nD) : W7 m ρ c (Proc.devRef .tc main_v60) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 4).trans ((Combine.final2 (V6 m ρ) c).trans ?_)
  rw [show V6 m ρ c main_v57 = _ from W6_v57 m ρ c, show V6 m ρ c main_v44 = _ from W6_v44 m ρ c, show V6 m ρ c main_v59 = _ from W6_v59 m ρ c,
    show V6 m ρ c main_v58 = _ from W6_v58 m ρ c]
  rfl

end Cert.KernelIdeal.Layers

end
-- ==== Proof.lean ====
/-
  A two-layer graph convolution on 100000 nodes and 1600000 edges: the kernel program against its host reference, over
  the extended reals.

  Both programs compute, from the edge list, the inverse square roots of the node degrees (one plus the number of
  incoming edges) and each edge's normalisation (the product of the two at its ends); each layer multiplies the node
  features by a weight matrix, gathers the products at the edges' sources, scales them by the normalisation, adds them
  up at the edges' targets, and adds to that the node's own product scaled by its squared inverse square root, and a
  bias; the first layer then clamps at zero and multiplies by a given mask. The kernel program does the two matrix
  products and the two combinations in four regions that take 2000 rows at a time, and the gathers and the sums over
  edges on the host between them, with the very operations the reference uses.

  At the ideal instance a change of float format is the identity and a matrix product into a zero accumulator is the
  plain sum over the contracted axis, so a region's 50 row blocks of the product are the rows of the host's whole
  product (Proof/Dense.lean), and its 50 row blocks of the combination are the rows of the host's whole pointwise
  expression (Proof/Combine.lean). Walking the buffer contents forward through the program, from the launch to the
  return, every buffer a region or a host operation reads is a stage of the reference's computation of the launch
  arguments, and the result buffer ends at its last stage (Proof/Layers.lean). No algebraic law is needed beyond that: the
  two sides add and multiply the same terms in the same order, and the precondition is not used.

  The idealized kernel program is the kernel program's own text read over the extended reals, so there is nothing to
  preserve.
-/
import proofs.«103116_j7000796692945_1_alg».proof.Defs
import proofs.«103116_j7000796692945_1_alg».proof.Proof.Gen.Kernel
import proofs.«103116_j7000796692945_1_alg».proof.Proof.Gen.Kernel.Frame
import proofs.«103116_j7000796692945_1_alg».proof.Proof.Gen.KernelIdeal
import proofs.«103116_j7000796692945_1_alg».proof.Proof.Gen.KernelIdeal.Frame
import proofs.«103116_j7000796692945_1_alg».proof.Proof.Gen.ReferenceIdeal
import proofs.«103116_j7000796692945_1_alg».proof.Proof.Gen.Pre_finite_inputs
import proofs.«103116_j7000796692945_1_alg».proof.Proof.Gen.ReferenceIdeal.Run
import proofs.«103116_j7000796692945_1_alg».proof.Proof.Gen.ReferenceIdeal.Read
import proofs.«103116_j7000796692945_1_alg».proof.Proof.KernelRun
import proofs.«103116_j7000796692945_1_alg».proof.Proof.Layers
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's last stage of those arguments in their
    result buffers: the kernel program by the walk through its regions, the reference by its run. -/
theorem algebraic : Cert.algebraic_KernelIdeal_ReferenceIdeal := by
  intro m ρ m' ρ' _ hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Layers.W7_v60 m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v93_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
